-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S100000x20 : Shape := ⟨2, ![100000, 20]⟩
abbrev S200000x64 : Shape := ⟨2, ![200000, 64]⟩
abbrev S64x64 : Shape := ⟨2, ![64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S64 .f32) (main_arg12 : FVec F S64x64 .f32) (main_arg13 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_v33

def fn {F : FTy → Type} [FloatOps F] (main_arg0 : IVec S100000 32) (main_arg1 : IVec S100000 32) (main_arg2 : IVec S100000x20 32) (main_arg3 : IVec S100000x20 32) (main_arg4 : FVec F S200000x64 .f32) (main_arg5 : FVec F S200000x64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) : IVec S_ 1 :=
  let main_v0 : FVec F S200000x64 .f32 := Host.absf main_arg4
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S200000x64 .f32 := Host.absf main_arg5
  let main_cst_0 : FVec F S_ .f32 := constant S_ .f32 0x7F800000#32
  let main_v5 : FVec F S200000x64 .f32 := broadcastInDim S200000x64 ![] bcast_S_S200000x64 main_cst_0
  let main_v6 : IVec S200000x64 1 := cmpf .olt main_v4 main_v5
  let main_c_1 : IVec S_ 1 := constantI S_ 1 1#1
  let main_v7 : IVec S_ 1 := (fun x v => Host.reduce IntOp.andi x v reducesTo_S200000x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_v13 main_v16
-- ==== Kernel.lean ====
abbrev S100000 : Shape := ⟨1, ![100000]⟩
abbrev S100000x20 : Shape := ⟨2, ![100000, 20]⟩
abbrev S200000x64 : Shape := ⟨2, ![200000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S100000x64 : Shape := ⟨2, ![100000, 64]⟩
abbrev S100000x20x1 : Shape := ⟨3, ![100000, 20, 1]⟩
abbrev S100000x20x64 : Shape := ⟨3, ![100000, 20, 64]⟩
abbrev S1000x64 : Shape := ⟨2, ![1000, 64]⟩
abbrev S1000x20x64 : Shape := ⟨3, ![1000, 20, 64]⟩
abbrev S1x64 : Shape := ⟨2, ![1, 64]⟩
abbrev S1000 : Shape := ⟨1, ![1000]⟩
abbrev S1000x1 : Shape := ⟨2, ![1000, 1]⟩

abbrev nBuf : Space → Nat
  | .hbm => 56
  | .vmem => 20
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000x20, .i32⟩
  | .hbm, ⟨3, _⟩ => ⟨S100000x20, .i32⟩
  | .hbm, ⟨4, _⟩ => ⟨S200000x64, .f32⟩
  | .hbm, ⟨5, _⟩ => ⟨S200000x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S_, .i32⟩
  | .hbm, ⟨24, _⟩ => ⟨S100000x20, .i32⟩
  | .hbm, ⟨25, _⟩ => ⟨S100000x20, .i1⟩
  | .hbm, ⟨26, _⟩ => ⟨S_, .i32⟩
  | .hbm, ⟨27, _⟩ => ⟨S100000x20, .i32⟩
  | .hbm, ⟨28, _⟩ => ⟨S100000x20, .i32⟩
  | .hbm, ⟨29, _⟩ => ⟨S100000x20, .i32⟩
  | .hbm, ⟨30, _⟩ => ⟨S100000x20x1, .i32⟩
  | .hbm, ⟨31, _⟩ => ⟨S100000x20x64, .f32⟩
  | .hbm, ⟨32, _⟩ => ⟨S64x64, .f32⟩
  | .hbm, ⟨33, _⟩ => ⟨S64x64, .f32⟩
  | .hbm, ⟨34, _⟩ => ⟨S100000x64, .f32⟩
  | .hbm, ⟨35, _⟩ => ⟨S_, .i32⟩
  | .hbm, ⟨36, _⟩ => ⟨S100000, .i32⟩
  | .hbm, ⟨37, _⟩ => ⟨S100000, .i1⟩
  | .hbm, ⟨38, _⟩ => ⟨S_, .i32⟩
  | .hbm, ⟨39, _⟩ => ⟨S100000, .i32⟩
  | .hbm, ⟨40, _⟩ => ⟨S100000, .i32⟩
  | .hbm, ⟨41, _⟩ => ⟨S100000, .i32⟩
  | .hbm, ⟨42, _⟩ => ⟨S100000x1, .i32⟩
  | .hbm, ⟨43, _⟩ => ⟨S100000x64, .f32⟩
  | .hbm, ⟨44, _⟩ => ⟨S_, .i32⟩
  | .hbm, ⟨45, _⟩ => ⟨S100000x20, .i32⟩
  | .hbm, ⟨46, _⟩ => ⟨S100000x20, .i1⟩
  | .hbm, ⟨47, _⟩ => ⟨S_, .i32⟩
  | .hbm, ⟨48, _⟩ => ⟨S100000x20, .i32⟩
  | .hbm, ⟨49, _⟩ => ⟨S100000x20, .i32⟩
  | .hbm, ⟨50, _⟩ => ⟨S100000x20, .i32⟩
  | .hbm, ⟨51, _⟩ => ⟨S100000x20x1, .i32⟩
  | .hbm, ⟨52, _⟩ => ⟨S100000x20x64, .f32⟩
  | .hbm, ⟨53, _⟩ => ⟨S64x64, .f32⟩
  | .hbm, ⟨54, _⟩ => ⟨S64x64, .f32⟩
  | .hbm, ⟨55, _⟩ => ⟨S100000x64, .f32⟩
  | .local _ .vmem, ⟨0, _⟩ => ⟨S1000x64, .f32⟩
  | .local _ .vmem, ⟨1, _⟩ => ⟨S1000x64, .f32⟩
  | .local _ .vmem, ⟨2, _⟩ => ⟨S1000x20x64, .f32⟩
  | .local _ .vmem, ⟨3, _⟩ => ⟨S1000x20x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S1000x20x64, .f32⟩
  | .local _ .vmem, ⟨13, _⟩ => ⟨S1000x20x64, .f32⟩
  | .local _ .vmem, ⟨14, _⟩ => ⟨S64x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S1000x64, .f32⟩
  | .local _ .vmem, ⟨19, _⟩ => ⟨S1000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x20x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x20x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x20 : S_.BroadcastsInDim S100000x20 (![] : Fin 0 → Fin S100000x20.rank)
  bcast_S100000x20_S100000x20x1_0_1 : S100000x20.BroadcastsInDim S100000x20x1 (![0, 1] : Fin 2 → Fin S100000x20x1.rank)
  transposes_S64x64_S64x64_1_0 : S64x64.Transposes [1, 0] S64x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x20x64_S1000x20x64_0_0_0 : ∀ a, (![0, 0, 0] : Fin 3 → Nat) a + S1000x20x64.size a ≤ S1000x20x64.size a
  h_S1000x20x64 : 0 < S1000x20x64.numel
  shapeCasts_S1000x20x64_S1000x20x64 : S1000x20x64.ShapeCasts S1000x20x64
  reduces_S1000x20x64_S1000x64 : S1000x20x64.Reduces [1] S1000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  bitsLt_bf16_f32 : FTy.bits .bf16 < FTy.bits .f32
  shapeCasts_S64_S1x64 : S64.ShapeCasts S1x64
  broadcasts_S1x64_S1000x64 : S1x64.Broadcasts S1000x64
  reduces_S1000x64_S1000 : S1000x64.Reduces [1] S1000
  shapeCasts_S1000_S1000x1 : S1000.ShapeCasts S1000x1
  broadcasts_S1000x1_S1000x64 : S1000x1.Broadcasts S1000x64
  gather_S200000x64_S100000x1_S100000x64_1_0_n_n_0_1_164_wf : GatherDims.WF S200000x64 S100000x1 S100000x64 [1] [0] [] [0] [] 1 ![1, 64]
  gather_S200000x64_S100000x20x1_S100000x20x64_2_0_n_n_0_2_164_wf : GatherDims.WF S200000x64 S100000x20x1 S100000x20x64 [2] [0] [] [0] [] 2 ![1, 64]
  dot_S1000x64_S64x64_S1000x64_1_0_0_1_n_n_wf : DotDims.WF S1000x64 S64x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S100000x64.size a
  hwx0_0 : ∀ i : grid0.Coords, EltTy.bits .f32 = 32 ∨ (Rect.block (s := S100000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x20x64.size a ≤ S100000x20x64.size a
  hwx0_1 : ∀ i : grid0.Coords, EltTy.bits .f32 = 32 ∨ (Rect.block (s := S100000x20x64) S1000x20x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x64.size a ≤ S100000x64.size a
  hwx0_6 : ∀ i : grid0.Coords, EltTy.bits .f32 = 32 ∨ (Rect.block (s := S100000x64) S1000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x20x64.size a ≤ S100000x20x64.size a
  hwx1_1 : ∀ i : grid1.Coords, EltTy.bits .f32 = 32 ∨ (Rect.block (s := S100000x20x64) S1000x20x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x64.size a ≤ S100000x64.size a
  hwx1_6 : ∀ i : grid1.Coords, EltTy.bits .f32 = 32 ∨ (Rect.block (s := S100000x64) S1000x64.size (cc1_transform_6 i) (hinb1_6 i)).WholeWords (EltTy.packing .f32)

variable [Facts₀]

def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def gather_S200000x64_S100000x20x1_S100000x20x64_2_0_n_n_0_2_164 : GatherDims S200000x64 S100000x20x1 S100000x20x64 where
  offsetDims := [2]
  collapsedSliceDims := [0]
  operandBatchingDims := []
  startIndicesBatchingDims := []
  startIndexMap := [0]
  indexVectorDim := 2
  sliceSizes := ![1, 64]
  wf := gather_S200000x64_S100000x20x1_S100000x20x64_2_0_n_n_0_2_164_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf

abbrev win0_0 : Pipeline.Window sig grid0 :=
  Pipeline.Window.ofSpec (Memref.whole main_v6) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1000x20x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1000x20x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000 : Shape := ⟨1, ![100000]⟩
abbrev S100000x20 : Shape := ⟨2, ![100000, 20]⟩
abbrev S200000x64 : Shape := ⟨2, ![200000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S100000x64 : Shape := ⟨2, ![100000, 64]⟩
abbrev S100000x20x1 : Shape := ⟨3, ![100000, 20, 1]⟩
abbrev S100000x20x64 : Shape := ⟨3, ![100000, 20, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S100000x20, .i32⟩
  | .hbm, ⟨3, _⟩ => ⟨S100000x20, .i32⟩
  | .hbm, ⟨4, _⟩ => ⟨S200000x64, .f32⟩
  | .hbm, ⟨5, _⟩ => ⟨S200000x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x64, .f32⟩
  | .hbm, ⟨23, _⟩ => ⟨S_, .i32⟩
  | .hbm, ⟨24, _⟩ => ⟨S100000x20, .i32⟩
  | .hbm, ⟨25, _⟩ => ⟨S100000x20, .i1⟩
  | .hbm, ⟨26, _⟩ => ⟨S_, .i32⟩
  | .hbm, ⟨27, _⟩ => ⟨S100000x20, .i32⟩
  | .hbm, ⟨28, _⟩ => ⟨S100000x20, .i32⟩
  | .hbm, ⟨29, _⟩ => ⟨S100000x20, .i32⟩
  | .hbm, ⟨30, _⟩ => ⟨S100000x20x1, .i32⟩
  | .hbm, ⟨31, _⟩ => ⟨S100000x20x64, .f32⟩
  | .hbm, ⟨32, _⟩ => ⟨S_, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S100000, .i32⟩
  | .hbm, ⟨63, _⟩ => ⟨S100000, .i1⟩
  | .hbm, ⟨64, _⟩ => ⟨S_, .i32⟩
  | .hbm, ⟨65, _⟩ => ⟨S100000, .i32⟩
  | .hbm, ⟨66, _⟩ => ⟨S100000, .i32⟩
  | .hbm, ⟨67, _⟩ => ⟨S100000, .i32⟩
  | .hbm, ⟨68, _⟩ => ⟨S100000x1, .i32⟩
  | .hbm, ⟨69, _⟩ => ⟨S100000x64, .f32⟩
  | .hbm, ⟨70, _⟩ => ⟨S_, .i32⟩
  | .hbm, ⟨71, _⟩ => ⟨S100000x20, .i32⟩
  | .hbm, ⟨72, _⟩ => ⟨S100000x20, .i1⟩
  | .hbm, ⟨73, _⟩ => ⟨S_, .i32⟩
  | .hbm, ⟨74, _⟩ => ⟨S100000x20, .i32⟩
  | .hbm, ⟨75, _⟩ => ⟨S100000x20, .i32⟩
  | .hbm, ⟨76, _⟩ => ⟨S100000x20, .i32⟩
  | .hbm, ⟨77, _⟩ => ⟨S100000x20x1, .i32⟩
  | .hbm, ⟨78, _⟩ => ⟨S100000x20x64, .f32⟩
  | .hbm, ⟨79, _⟩ => ⟨S_, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S64x64, .f32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | .hbm, ⟨89, _⟩ => ⟨S64x64, .f32⟩
  | .hbm, ⟨90, _⟩ => ⟨S100000x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S_, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S100000x64, .f32⟩
  | .hbm, ⟨107, _⟩ => ⟨S100000x64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_7 : Ref sig .tc := ⟨.hbm, 70, rfl⟩
abbrev main_v41 : Ref sig .tc := ⟨.hbm, 71, rfl⟩
abbrev main_v42 : Ref sig .tc := ⟨.hbm, 72, rfl⟩
abbrev main_c_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call2_cst : Ref sig .tc := ⟨.hbm, 95, rfl⟩
abbrev main_call2_v0 : Ref sig .tc := ⟨.hbm, 96, rfl⟩
abbrev main_v62 : Ref sig .tc := ⟨.hbm, 97, rfl⟩
abbrev main_call3_v0 : Ref sig .tc := ⟨.hbm, 98, rfl⟩
abbrev main_call3_cst : Ref sig .tc := ⟨.hbm, 99, rfl⟩
abbrev main_call3_v1 : Ref sig .tc := ⟨.hbm, 100, rfl⟩
abbrev main_call3_v2 : Ref sig .tc := ⟨.hbm, 101, rfl⟩
abbrev main_v63 : Ref sig .tc := ⟨.hbm, 102, rfl⟩
abbrev main_cst_11 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x20 : S_.BroadcastsInDim S100000x20 (![] : Fin 0 → Fin S100000x20.rank)
  bcast_S100000x20_S100000x20x1_0_1 : S100000x20.BroadcastsInDim S100000x20x1 (![0, 1] : Fin 2 → Fin S100000x20x1.rank)
  reducesTo_S100000x20x64_S100000x64_d1 : S100000x20x64.ReducesTo [1] S100000x64
  h_S_ : 0 < S_.numel
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S200000x64_S100000x1_S100000x64_1_0_n_n_0_1_164_wf : GatherDims.WF S200000x64 S100000x1 S100000x64 [1] [0] [] [0] [] 1 ![1, 64]
  gather_S200000x64_S100000x20x1_S100000x20x64_2_0_n_n_0_2_164_wf : GatherDims.WF S200000x64 S100000x20x1 S100000x20x64 [2] [0] [] [0] [] 2 ![1, 64]
  dot_S100000x64_S64x64_S100000x64_1_0_0_1_n_n_wf : DotDims.WF S100000x64 S64x64 S100000x64 [1] [0] [0] [1] [] []

variable [Facts₀]

def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def gather_S200000x64_S100000x20x1_S100000x20x64_2_0_n_n_0_2_164 : GatherDims S200000x64 S100000x20x1 S100000x20x64 where
  offsetDims := [2]
  collapsedSliceDims := [0]
  operandBatchingDims := []
  startIndicesBatchingDims := []
  startIndexMap := [0]
  indexVectorDim := 2
  sliceSizes := ![1, 64]
  wf := gather_S200000x64_S100000x20x1_S100000x20x64_2_0_n_n_0_2_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.LibMidSum.lean ====
/-
  A general lemma about a sum along the middle axis of a rank-three array, read at the extended reals.

  A kernel's sum of an [A, B, C] array along axis 1 has, at the entry (p, c) of its [A, C] result, the sum over
  s of the entries (p, s, c): the reduced index with the summed coordinate put back in the middle.
-/
import Idealize.ShloMosaic.PureOps.Ideal.Laws
import Idealize.ShloMosaic.Lib.ValueIdx

noncomputable section

namespace Idealize.ShloMosaic.MidSum

open Idealize.ShloMosaic Idealize.ShloMosaic.ValueIdx
open scoped BigOperators

/-- A kernel's sum of an [A, B, C] array along axis 1, at the entry (p, c): the sum over s of the entries (p, s, c). -/
theorem midSum_apply {A B C : Nat} {φ : FTy} (src : FVec Ideal (⟨3, ![A, B, C]⟩ : Shape) φ) (acc : BitVec φ.bits)
    (h : Shape.Reduces (⟨3, ![A, B, C]⟩ : Shape) [1] (⟨2, ![A, C]⟩ : Shape)) (hφ : FKind.Formats φ)
    (hacc : acc = FKind.add.neutral φ hφ) (p : Fin A) (c : Fin C) :
    multiReduction .add [1] (⟨2, ![A, C]⟩ : Shape) src acc h hφ hacc (ix2 p c) = ∑ s : Fin B, (src (ix3 p s c) : EReal) := by
  refine (Ideal.multiReduction_add_single src acc h hφ hacc (ix2 p c)).trans ?_
  refine Finset.sum_congr rfl fun k _ => congrArg src ?_
  funext a
  exact Fin.ext (by match a with | ⟨0, _⟩ => rfl | ⟨1, _⟩ => rfl | ⟨2, _⟩ => rfl)

end Idealize.ShloMosaic.MidSum

end
-- ==== Proof.SageSpec.lean ====
/-
  One row of a mean-aggregating graph layer with a row normalisation, over the extended reals.

  A node has a feature row x (64 entries) and twenty neighbour rows nb s (64 entries each). The layer first
  averages the neighbour rows column by column, agg k = (sum over s of nb s k) / 20; then applies two 64 x 64
  linear maps, given here in the orientation [input column k, output column d], adds the two bias rows in the
  order ((x·ws + bs) + agg·wn) + bn, and clips below at zero: that is act d. The result is act divided by the
  larger of its Euclidean length, sqrt (sum over e of act e · act e), and a small positive floor.

  Nothing here is specific to how the rows are stored: layer reads the rows out of whole arrays with R nodes, and
  both a tile of R = 1000 nodes and the whole array of R = 100000 nodes are instances of it.
-/
import Idealize.ShloMosaic.PureOps.Ideal.Laws
import Idealize.ShloMosaic.Lib.ValueIdx

noncomputable section

namespace Cert.Sage

open Idealize.ShloMosaic Idealize.ShloMosaic.ValueIdx
open scoped BigOperators

/-- The neighbour count, as the single-precision word for 20.0 denotes it. -/
abbrev cnt : EReal := Ideal.ofBits .f32 0x41A00000#32
/-- The floor of the normalising length, as the single-precision word nearest 1e-12 denotes it. -/
abbrev floor : EReal := Ideal.ofBits .f32 0x2B8CBCCC#32

/-- Column k of the mean of the twenty neighbour rows. -/
def agg (nb : Fin 20 → Fin 64 → EReal) (k : Fin 64) : EReal :=
  Ideal.div (∑ s : Fin 20, nb s k) cnt

/-- Column d of the layer before normalisation: the two linear maps and the two biases, added left to right, clipped at zero. -/
def act (x : Fin 64 → EReal) (nb : Fin 20 → Fin 64 → EReal) (ws wn : Fin 64 → Fin 64 → EReal) (bs bn : Fin 64 → EReal)
    (d : Fin 64) : EReal :=
  max ((((∑ k : Fin 64, x k * ws k d) + bs d) + ∑ k : Fin 64, agg nb k * wn k d) + bn d) 0

/-- Column d of the normalised row: act d over the larger of the row's Euclidean length and the floor. -/
def row (x : Fin 64 → EReal) (nb : Fin 20 → Fin 64 → EReal) (ws wn : Fin 64 → Fin 64 → EReal) (bs bn : Fin 64 → EReal)
    (d : Fin 64) : EReal :=
  Ideal.div (act x nb ws wn bs bn d)
    (max (Ideal.sqrt (∑ e : Fin 64, act x nb ws wn bs bn e * act x nb ws wn bs bn e)) floor)

/-- The layer on R nodes at once: entry (r, d) is row d of node r, whose feature row is row r of selfE and whose
    neighbour rows are the twenty rows (r, s, ·) of neigh. -/
def layer {R : Nat} (selfE : (⟨2, ![R, 64]⟩ : Shape).Idx → EReal) (neigh : (⟨3, ![R, 20, 64]⟩ : Shape).Idx → EReal)
    (ws wn : (⟨2, ![64, 64]⟩ : Shape).Idx → EReal) (bs bn : (⟨1, ![64]⟩ : Shape).Idx → EReal) :
    (⟨2, ![R, 64]⟩ : Shape).Idx → EReal :=
  fun i => row (fun k => selfE (ix2 (i 0) k)) (fun s k => neigh (ix3 (i 0) s k)) (fun k d => ws (ix2 k d))
    (fun k d => wn (ix2 k d)) (fun d => bs (ix1 d)) (fun d => bn (ix1 d)) (i 1)

theorem layer_apply {R : Nat} (selfE : (⟨2, ![R, 64]⟩ : Shape).Idx → EReal) (neigh : (⟨3, ![R, 20, 64]⟩ : Shape).Idx → EReal)
    (ws wn : (⟨2, ![64, 64]⟩ : Shape).Idx → EReal) (bs bn : (⟨1, ![64]⟩ : Shape).Idx → EReal) (r : Fin R) (d : Fin 64) :
    layer selfE neigh ws wn bs bn (ix2 r d)
      = row (fun k => selfE (ix2 r k)) (fun s k => neigh (ix3 r s k)) (fun k d => ws (ix2 k d))
          (fun k d => wn (ix2 k d)) (fun d => bs (ix1 d)) (fun d => bn (ix1 d)) d := rfl

end Cert.Sage

end
-- ==== Proof.KernelBlock.lean ====
/-
  What one grid point computes: the value a tile's kernel body stores is the layer on the tile's 1000 nodes.

  The body loads the tile's feature rows x0 [1000, 64], its neighbour rows x1 [1000, 20, 64], the two weight
  matrices in the orientation [input column, output column] and the two bias rows, and stores one [1000, 64]
  value. Entry by entry that value is Sage.row of node p's rows: the sum over the neighbour axis divided by 20 is
  the neighbour mean; each matrix product into a zero accumulator is the plain sum over the 64 input columns
  (the change to the narrower float format before the product is the identity on the extended reals); a bias
  row made a [1, 64] array and repeated down the rows contributes its entry d; the row's sum of squares made a
  column and repeated along the row gives every entry of the row the same divisor.
  Both regions' bodies are the same term, so one statement serves both.
-/
import proofs.«132692_j85813446574086_1_alg».proof.Proof.Gen.KernelIdeal.Skeleton
import proofs.«132692_j85813446574086_1_alg».proof.Proof.LibPlainDot
import proofs.«132692_j85813446574086_1_alg».proof.Proof.LibMidSum
import proofs.«132692_j85813446574086_1_alg».proof.Proof.SageSpec
import Idealize.ShloMosaic.Lib.Pipeline.Value
import Idealize.ShloMosaic.Lib.ValueLayout

noncomputable section

namespace Cert.KernelIdeal.Block

open Cert.KernelIdeal Cert.KernelIdeal.Gen
open Idealize.ShloMosaic Idealize.ShloMosaic.TcCoe Idealize.ShloMosaic.ValueIdx
open scoped BigOperators

/-- The neighbour mean the body forms, at node p and column k. -/
theorem mean_apply (x1 : Vec Ideal S1000x20x64 .f32) (p : Fin 1000) (k : Fin 64) :
    divf (multiReduction (F := Ideal) .add [1] S1000x64 x1 0x00000000#32 reduces_S1000x20x64_S1000x64 (.inl rfl) rfl)
        (broadcast S1000x64 (FloatOps.ofBits (F := Ideal) .f32 0x41A00000#32)) (ix2 p k)
      = Cert.Sage.agg (fun s k => x1 (ix3 p s k)) k := by
  show Ideal.div (multiReduction (F := Ideal) .add [1] S1000x64 x1 0x00000000#32 reduces_S1000x20x64_S1000x64 (.inl rfl) rfl (ix2 p k))
      (Ideal.ofBits .f32 0x41A00000#32) = _
  unfold Cert.Sage.agg
  exact congrArg (Ideal.div · _) (MidSum.midSum_apply x1 _ _ _ _ p k)

/-- The value before the clip and the normalisation, at node p and column d. -/
theorem act_apply (x0 : Vec Ideal S1000x64 .f32) (x1 : Vec Ideal S1000x20x64 .f32) (w7 w9 : Vec Ideal S64x64 .f32)
    (b11 b12 : Vec Ideal S64 .f32) (p : Fin 1000) (d : Fin 64) :
    maximumf
        (addf (addf (addf
          (matmul dot_S1000x64_S64x64_S1000x64_1_0_0_1_n_n none (truncf .bf16 x0 bitsLt_bf16_f32) (truncf .bf16 w7 bitsLt_bf16_f32)
            (constant S1000x64 .f32 0x00000000#32))
          (broadcastTo S1000x64 (shapeCast S1x64 b11 shapeCasts_S64_S1x64) broadcasts_S1x64_S1000x64))
          (matmul dot_S1000x64_S64x64_S1000x64_1_0_0_1_n_n none
            (truncf .bf16 (divf (multiReduction .add [1] S1000x64 x1 0x00000000#32 reduces_S1000x20x64_S1000x64 (.inl rfl) rfl)
              (broadcast S1000x64 (Scalar.ofBits (F := Ideal) .f32 0x41A00000#32))) bitsLt_bf16_f32)
            (truncf .bf16 w9 bitsLt_bf16_f32) (constant S1000x64 .f32 0x00000000#32)))
          (broadcastTo S1000x64 (shapeCast S1x64 b12 shapeCasts_S64_S1x64) broadcasts_S1x64_S1000x64))
        (broadcast S1000x64 (Scalar.ofBits (F := Ideal) .f32 0x00000000#32)) (ix2 p d)
      = Cert.Sage.act (fun k => x0 (ix2 p k)) (fun s k => x1 (ix3 p s k)) (fun k d => w7 (ix2 k d)) (fun k d => w9 (ix2 k d))
          (fun d => b11 (ix1 d)) (fun d => b12 (ix1 d)) d := by
  rw [maximumf_apply, addf_apply, addf_apply, addf_apply, broadcast_apply,
    broadcastTo_1b_ab_apply, broadcastTo_1b_ab_apply, shapeCast_a_1a_apply, shapeCast_a_1a_apply]
  simp only [matmul]
  rw [PlainDot.matmul_zero_apply _ rfl rfl rfl rfl rfl rfl, PlainDot.matmul_zero_apply _ rfl rfl rfl rfl rfl rfl]
  unfold Cert.Sage.act
  simp only [truncf_apply]
  rw [show Scalar.ofBits (F := Ideal) .f32 0x00000000#32 = (0 : EReal) from Ideal.ofBits_zero_f32]
  exact congrArg (fun z => max (_ + _ + z + _) 0)
    (Finset.sum_congr rfl fun k _ => congrArg (· * _) (mean_apply x1 p k))

/-- The stored value is the layer on the tile: entry (p, d) is row d of node p. -/
theorem pay0_eq (x0 : Vec Ideal S1000x64 .f32) (x1 : Vec Ideal S1000x20x64 .f32) (w7 w9 : Vec Ideal S64x64 .f32)
    (b11 b12 : Vec Ideal S64 .f32) :
    k0_pay1 (F := Ideal) x0 x1 w7 w9 b11 b12 = Cert.Sage.layer (R := 1000) x0 x1 w7 w9 b11 b12 := by
  funext j
  obtain ⟨p, q, rfl⟩ : ∃ (p : Fin 1000) (q : Fin 64), j = ix2 p q := ⟨j 0, j 1, eq_ix2 j⟩
  rw [Cert.Sage.layer_apply]
  unfold k0_pay1
  simp only [shapeCast_self]
  rw [divf_apply]
  unfold Cert.Sage.row
  refine congrArg₂ Ideal.div (act_apply x0 x1 w7 w9 b11 b12 p q) ?_
  -- the divisor: the column of row lengths, floored, repeated along the row
  refine (PlainDot.broadcastTo_a1_ab_apply _ _ p q).trans ?_
  show max (Ideal.sqrt (shapeCast S1000x1 _ shapeCasts_S1000_S1000x1 (ix2 p (0 : Fin 1)))) (Ideal.ofBits .f32 0x2B8CBCCC#32) = _
  refine congrArg (fun z => max (Ideal.sqrt z) _) ?_
  refine (PlainDot.shapeCast_a_a1_apply _ _ p 0).trans ?_
  refine (PlainDot.rowSum_apply _ _ _ _ _ p).trans ?_
  refine Finset.sum_congr rfl fun e _ => ?_
  exact congrArg₂ (· * ·) (act_apply x0 x1 w7 w9 b11 b12 p e) (act_apply x0 x1 w7 w9 b11 b12 p e)

/-- The second region's body stores the same term. -/
theorem pay1_eq (x0 : Vec Ideal S1000x64 .f32) (x1 : Vec Ideal S1000x20x64 .f32) (w7 w9 : Vec Ideal S64x64 .f32)
    (b11 b12 : Vec Ideal S64 .f32) :
    k1_pay1 (F := Ideal) x0 x1 w7 w9 b11 b12 = Cert.Sage.layer (R := 1000) x0 x1 w7 w9 b11 b12 :=
  pay0_eq x0 x1 w7 w9 b11 b12

end Cert.KernelIdeal.Block

end
-- ==== Proof.RegionUser.lean ====
/-
  From tiles to the array, for the first region (the user nodes).

  The region's grid has 100 points. At point t the feature window and the output window hold rows
  1000 t … 1000 t + 999 of their arrays, the neighbour window the same rows of the [100000, 20, 64] array, and the
  two weight matrices and the two bias rows are whole at every point. The body stores the layer on its tile
  (KernelBlock), and the layer's entry (r, d) reads node r's rows only, so what point t writes back is block t of
  the layer on the WHOLE arrays. Row r lies in the block of point r / 1000, so the blocks cover the array and the
  output array ends holding the layer of the arrays the region was entered with.
-/
import proofs.«132692_j85813446574086_1_alg».proof.Proof.Gen.KernelIdeal.Frame
import proofs.«132692_j85813446574086_1_alg».proof.Proof.KernelBlock
import Idealize.ShloMosaic.Lib.Pipeline.Value

set_option maxRecDepth 16384

noncomputable section

namespace Cert.KernelIdeal.User

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the three tiled windows sit at block t along the node axis
    and at block 0 elsewhere; the four small operands sit at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The array the region leaves: the layer of the arrays it was entered with. -/
abbrev result (c : Dev nD) : S100000x64.Idx → EReal :=
  Cert.Sage.layer (R := 100000) (V c main_v6) (V c main_v13) (V c main_v14) (V c main_v15) (V c main_arg7) (V c main_arg9)

/-- Node p of tile t is node 1000 t + p of the array. -/
abbrev node (t : Fin cfg0.N) (p : Fin 1000) : Fin 100000 :=
  ⟨t.val * 1000 + p.val, by have ht : t.val < 100 := lt_of_lt_of_eq t.isLt N_0; have := p.isLt; omega⟩

/-- What point t writes back is block t of the layer on the whole arrays. -/
theorem flushed_eq (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero hz2]
  simp only [View.ld_unit_zero (S := S1000x64) hz2, View.ld_unit_zero (S := S1000x20x64) hz3,
    View.ld_unit_zero (S := S64x64) hz2, View.ld_unit_zero (S := S64) hz1]
  rw [Cert.KernelIdeal.Block.pay0_eq]
  obtain ⟨e00, e01, e10, e11, e12, e20, e21, e30, e40, e41, e50, e60, e61⟩ := idx_facts t
  funext j
  obtain ⟨p, q, rfl⟩ : ∃ (p : Fin 1000) (q : Fin 64), j = ix2 p q := ⟨j 0, j 1, eq_ix2 j⟩
  have h0 : ∀ k : Fin 64, ((cfg0.win 0).blk t).view.emb (ix2 p k) = ix2 (node t p) k := fun k => by
    funext a; apply Fin.ext
    match a with
    | ⟨0, _⟩ => show win0_0.index t (0 : Fin 2) * 1000 + 1 * p.val = t.val * 1000 + p.val; omega
    | ⟨1, _⟩ => show win0_0.index t (1 : Fin 2) * 64 + 1 * k.val = k.val; omega
  have h1 : ∀ (s : Fin 20) (k : Fin 64), ((cfg0.win 1).blk t).view.emb (ix3 p s k) = ix3 (node t p) s k := fun s k => by
    funext a; apply Fin.ext
    match a with
    | ⟨0, _⟩ => show win0_1.index t (0 : Fin 3) * 1000 + 1 * p.val = t.val * 1000 + p.val; omega
    | ⟨1, _⟩ => show win0_1.index t (1 : Fin 3) * 20 + 1 * s.val = s.val; omega
    | ⟨2, _⟩ => show win0_1.index t (2 : Fin 3) * 64 + 1 * k.val = k.val; omega
  have h2 : ∀ k d : Fin 64, ((cfg0.win 2).blk t).view.emb (ix2 k d) = ix2 k d := fun k d => by
    funext a; apply Fin.ext
    match a with
    | ⟨0, _⟩ => show win0_2.index t (0 : Fin 2) * 64 + 1 * k.val = k.val; omega
    | ⟨1, _⟩ => show win0_2.index t (1 : Fin 2) * 64 + 1 * d.val = d.val; omega
  have h3 : ∀ d : Fin 64, ((cfg0.win 3).blk t).view.emb (ix1 d) = ix1 d := fun d => by
    funext a; apply Fin.ext
    match a with
    | ⟨0, _⟩ => show win0_3.index t (0 : Fin 1) * 64 + 1 * d.val = d.val; omega
  have h4 : ∀ k d : Fin 64, ((cfg0.win 4).blk t).view.emb (ix2 k d) = ix2 k d := fun k d => by
    funext a; apply Fin.ext
    match a with
    | ⟨0, _⟩ => show win0_4.index t (0 : Fin 2) * 64 + 1 * k.val = k.val; omega
    | ⟨1, _⟩ => show win0_4.index t (1 : Fin 2) * 64 + 1 * d.val = d.val; omega
  have h5 : ∀ d : Fin 64, ((cfg0.win 5).blk t).view.emb (ix1 d) = ix1 d := fun d => by
    funext a; apply Fin.ext
    match a with
    | ⟨0, _⟩ => show win0_5.index t (0 : Fin 1) * 64 + 1 * d.val = d.val; omega
  have h6 : ((cfg0.win 6).blk t).view.emb (ix2 p q) = ix2 (node t p) q := by
    funext a; apply Fin.ext
    match a with
    | ⟨0, _⟩ => show win0_6.index t (0 : Fin 2) * 1000 + 1 * p.val = t.val * 1000 + p.val; omega
    | ⟨1, _⟩ => show win0_6.index t (1 : Fin 2) * 64 + 1 * q.val = q.val; omega
  show Cert.Sage.row (fun k => V c main_v6 (((cfg0.win 0).blk t).view.emb (ix2 p k)))
        (fun s k => V c main_v13 (((cfg0.win 1).blk t).view.emb (ix3 p s k)))
        (fun k d => V c main_v14 (((cfg0.win 2).blk t).view.emb (ix2 k d)))
        (fun k d => V c main_v15 (((cfg0.win 4).blk t).view.emb (ix2 k d)))
        (fun d => V c main_arg7 (((cfg0.win 3).blk t).view.emb (ix1 d)))
        (fun d => V c main_arg9 (((cfg0.win 5).blk t).view.emb (ix1 d))) q
      = result V c (((cfg0.win 6).blk t).view.emb (ix2 p q))
  rw [h6]
  simp only [h0, h1, h2, h3, h4, h5]
  exact (Cert.Sage.layer_apply (V c main_v6) (V c main_v13) (V c main_v14) (V c main_v15) (V c main_arg7) (V c main_arg9)
    (node t p) q).symm

/-- An index of the array is in point t's block iff each coordinate is in the block's range on its axis. -/
theorem mem_blk (t : Fin cfg0.N) (i : S100000x64.Idx) :
    i ∈ ((cfg0.win 6).blk t).view.set ↔ ∀ a : Fin 2, win0_6.index t a * S1000x64.size a ≤ (i a).val
      ∧ (i a).val < win0_6.index t a * S1000x64.size a + S1000x64.size a := by
  show i ∈ ((View.whole main_v16).slice (win0_6.rect t)).set ↔ _
  rw [View.set_slice_whole, Rect.mem_set_unit]
  exact Iff.rfl

/-- Node r is written back by point r / 1000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 100 := N_0
  refine ⟨⟨(i 0).val / 1000, by rw [hN]; omega⟩, flush0_6 _, ?_⟩
  obtain ⟨e00, e01, e10, e11, e12, e20, e21, e30, e40, e41, e50, e60, e61⟩ := idx_facts ⟨(i 0).val / 1000, by rw [hN]; omega⟩
  rw [mem_blk]
  intro a
  match a with
  | ⟨0, _⟩ =>
    show win0_6.index ⟨(i 0).val / 1000, _⟩ (0 : Fin 2) * 1000 ≤ (i 0).val
      ∧ (i 0).val < win0_6.index ⟨(i 0).val / 1000, _⟩ (0 : Fin 2) * 1000 + 1000
    rw [e60]; show (i 0).val / 1000 * 1000 ≤ (i 0).val ∧ (i 0).val < (i 0).val / 1000 * 1000 + 1000; omega
  | ⟨1, _⟩ =>
    show win0_6.index ⟨(i 0).val / 1000, _⟩ (1 : Fin 2) * 64 ≤ (i 1).val
      ∧ (i 1).val < win0_6.index ⟨(i 0).val / 1000, _⟩ (1 : Fin 2) * 64 + 64
    rw [e61]; omega

/-- The output array after the region: the layer of the arrays it was entered with. -/
theorem arr_eq (c : Dev nD) : (dat0 V c).arrAt 6 cfg0.N = result V c :=
  (dat0 V c).arrAt_eq_of_cover 6 (result V c) (fun t _ => flushed_eq V c t) (cover)

end Cert.KernelIdeal.User

end
-- ==== Proof.RegionItem.lean ====
/-
  From tiles to the array, for the second region (the item nodes).

  The region's grid has 100 points. At point t the feature window and the output window hold rows
  1000 t … 1000 t + 999 of their arrays, the neighbour window the same rows of the [100000, 20, 64] array, and the
  two weight matrices and the two bias rows are whole at every point. The body stores the layer on its tile
  (KernelBlock), and the layer's entry (r, d) reads node r's rows only, so what point t writes back is block t of
  the layer on the WHOLE arrays. Row r lies in the block of point r / 1000, so the blocks cover the array and the
  output array ends holding the layer of the arrays the region was entered with.
-/
import proofs.«132692_j85813446574086_1_alg».proof.Proof.Gen.KernelIdeal.Frame
import proofs.«132692_j85813446574086_1_alg».proof.Proof.KernelBlock
import Idealize.ShloMosaic.Lib.Pipeline.Value

set_option maxRecDepth 16384

noncomputable section

namespace Cert.KernelIdeal.Item

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the three tiled windows sit at block t along the node axis
    and at block 0 elsewhere; the four small operands sit at block 0. -/
theorem idx_facts : ∀ t : Fin cfg1.N,
    win1_0.index t (0 : Fin 2) = t.val ∧ win1_0.index t (1 : Fin 2) = 0
    ∧ win1_1.index t (0 : Fin 3) = t.val ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The array the region leaves: the layer of the arrays it was entered with. -/
abbrev result (c : Dev nD) : S100000x64.Idx → EReal :=
  Cert.Sage.layer (R := 100000) (V c main_v23) (V c main_v30) (V c main_v31) (V c main_v32) (V c main_arg11) (V c main_arg13)

/-- Node p of tile t is node 1000 t + p of the array. -/
abbrev node (t : Fin cfg1.N) (p : Fin 1000) : Fin 100000 :=
  ⟨t.val * 1000 + p.val, by have ht : t.val < 100 := lt_of_lt_of_eq t.isLt N_1; have := p.isLt; omega⟩

/-- What point t writes back is block t of the layer on the whole arrays. -/
theorem flushed_eq (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero hz2]
  simp only [View.ld_unit_zero (S := S1000x64) hz2, View.ld_unit_zero (S := S1000x20x64) hz3,
    View.ld_unit_zero (S := S64x64) hz2, View.ld_unit_zero (S := S64) hz1]
  rw [Cert.KernelIdeal.Block.pay1_eq]
  obtain ⟨e00, e01, e10, e11, e12, e20, e21, e30, e40, e41, e50, e60, e61⟩ := idx_facts t
  funext j
  obtain ⟨p, q, rfl⟩ : ∃ (p : Fin 1000) (q : Fin 64), j = ix2 p q := ⟨j 0, j 1, eq_ix2 j⟩
  have h0 : ∀ k : Fin 64, ((cfg1.win 0).blk t).view.emb (ix2 p k) = ix2 (node t p) k := fun k => by
    funext a; apply Fin.ext
    match a with
    | ⟨0, _⟩ => show win1_0.index t (0 : Fin 2) * 1000 + 1 * p.val = t.val * 1000 + p.val; omega
    | ⟨1, _⟩ => show win1_0.index t (1 : Fin 2) * 64 + 1 * k.val = k.val; omega
  have h1 : ∀ (s : Fin 20) (k : Fin 64), ((cfg1.win 1).blk t).view.emb (ix3 p s k) = ix3 (node t p) s k := fun s k => by
    funext a; apply Fin.ext
    match a with
    | ⟨0, _⟩ => show win1_1.index t (0 : Fin 3) * 1000 + 1 * p.val = t.val * 1000 + p.val; omega
    | ⟨1, _⟩ => show win1_1.index t (1 : Fin 3) * 20 + 1 * s.val = s.val; omega
    | ⟨2, _⟩ => show win1_1.index t (2 : Fin 3) * 64 + 1 * k.val = k.val; omega
  have h2 : ∀ k d : Fin 64, ((cfg1.win 2).blk t).view.emb (ix2 k d) = ix2 k d := fun k d => by
    funext a; apply Fin.ext
    match a with
    | ⟨0, _⟩ => show win1_2.index t (0 : Fin 2) * 64 + 1 * k.val = k.val; omega
    | ⟨1, _⟩ => show win1_2.index t (1 : Fin 2) * 64 + 1 * d.val = d.val; omega
  have h3 : ∀ d : Fin 64, ((cfg1.win 3).blk t).view.emb (ix1 d) = ix1 d := fun d => by
    funext a; apply Fin.ext
    match a with
    | ⟨0, _⟩ => show win1_3.index t (0 : Fin 1) * 64 + 1 * d.val = d.val; omega
  have h4 : ∀ k d : Fin 64, ((cfg1.win 4).blk t).view.emb (ix2 k d) = ix2 k d := fun k d => by
    funext a; apply Fin.ext
    match a with
    | ⟨0, _⟩ => show win1_4.index t (0 : Fin 2) * 64 + 1 * k.val = k.val; omega
    | ⟨1, _⟩ => show win1_4.index t (1 : Fin 2) * 64 + 1 * d.val = d.val; omega
  have h5 : ∀ d : Fin 64, ((cfg1.win 5).blk t).view.emb (ix1 d) = ix1 d := fun d => by
    funext a; apply Fin.ext
    match a with
    | ⟨0, _⟩ => show win1_5.index t (0 : Fin 1) * 64 + 1 * d.val = d.val; omega
  have h6 : ((cfg1.win 6).blk t).view.emb (ix2 p q) = ix2 (node t p) q := by
    funext a; apply Fin.ext
    match a with
    | ⟨0, _⟩ => show win1_6.index t (0 : Fin 2) * 1000 + 1 * p.val = t.val * 1000 + p.val; omega
    | ⟨1, _⟩ => show win1_6.index t (1 : Fin 2) * 64 + 1 * q.val = q.val; omega
  show Cert.Sage.row (fun k => V c main_v23 (((cfg1.win 0).blk t).view.emb (ix2 p k)))
        (fun s k => V c main_v30 (((cfg1.win 1).blk t).view.emb (ix3 p s k)))
        (fun k d => V c main_v31 (((cfg1.win 2).blk t).view.emb (ix2 k d)))
        (fun k d => V c main_v32 (((cfg1.win 4).blk t).view.emb (ix2 k d)))
        (fun d => V c main_arg11 (((cfg1.win 3).blk t).view.emb (ix1 d)))
        (fun d => V c main_arg13 (((cfg1.win 5).blk t).view.emb (ix1 d))) q
      = result V c (((cfg1.win 6).blk t).view.emb (ix2 p q))
  rw [h6]
  simp only [h0, h1, h2, h3, h4, h5]
  exact (Cert.Sage.layer_apply (V c main_v23) (V c main_v30) (V c main_v31) (V c main_v32) (V c main_arg11) (V c main_arg13)
    (node t p) q).symm

/-- An index of the array is in point t's block iff each coordinate is in the block's range on its axis. -/
theorem mem_blk (t : Fin cfg1.N) (i : S100000x64.Idx) :
    i ∈ ((cfg1.win 6).blk t).view.set ↔ ∀ a : Fin 2, win1_6.index t a * S1000x64.size a ≤ (i a).val
      ∧ (i a).val < win1_6.index t a * S1000x64.size a + S1000x64.size a := by
  show i ∈ ((View.whole main_v33).slice (win1_6.rect t)).set ↔ _
  rw [View.set_slice_whole, Rect.mem_set_unit]
  exact Iff.rfl

/-- Node r is written back by point r / 1000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 100 := N_1
  refine ⟨⟨(i 0).val / 1000, by rw [hN]; omega⟩, flush1_6 _, ?_⟩
  obtain ⟨e00, e01, e10, e11, e12, e20, e21, e30, e40, e41, e50, e60, e61⟩ := idx_facts ⟨(i 0).val / 1000, by rw [hN]; omega⟩
  rw [mem_blk]
  intro a
  match a with
  | ⟨0, _⟩ =>
    show win1_6.index ⟨(i 0).val / 1000, _⟩ (0 : Fin 2) * 1000 ≤ (i 0).val
      ∧ (i 0).val < win1_6.index ⟨(i 0).val / 1000, _⟩ (0 : Fin 2) * 1000 + 1000
    rw [e60]; show (i 0).val / 1000 * 1000 ≤ (i 0).val ∧ (i 0).val < (i 0).val / 1000 * 1000 + 1000; omega
  | ⟨1, _⟩ =>
    show win1_6.index ⟨(i 0).val / 1000, _⟩ (1 : Fin 2) * 64 ≤ (i 1).val
      ∧ (i 1).val < win1_6.index ⟨(i 0).val / 1000, _⟩ (1 : Fin 2) * 64 + 64
    rw [e61]; omega

/-- The output array after the region: the layer of the arrays it was entered with. -/
theorem arr_eq (c : Dev nD) : (dat1 V c).arrAt 6 cfg1.N = result V c :=
  (dat1 V c).arrAt_eq_of_cover 6 (result V c) (fun t _ => flushed_eq V c t) (cover)

end Cert.KernelIdeal.Item

end
-- ==== Proof.KernelValue.lean ====
/-
  What the kernel program leaves in its two result buffers, as functions of the launch memory.

  @main is four stretches: host operations, the user region, host operations, the item region. The host
  operations of a side turn a node index below zero into the index counted from the table's end, gather the
  nodes' feature rows (feat) and their twenty neighbour rows (nbrs) out of the side's table, and transpose the
  side's two weight matrices (tr). Neither stretch writes an argument or the other side's buffers, and a region
  writes its output array only. So the first region is entered with the user side's gathered rows, transposed
  weights and biases, and leaves the layer of them in the first result (RegionUser); the second stretch and region
  do the same for the item side from the untouched arguments, and leave the first result as it was.
-/
import proofs.«132692_j85813446574086_1_alg».proof.Proof.KernelRun
import proofs.«132692_j85813446574086_1_alg».proof.Proof.RegionUser
import proofs.«132692_j85813446574086_1_alg».proof.Proof.RegionItem
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.StableHlo Idealize.SL.Sem

/-! ## The host chains of one side -/

/-- Node indices with the negative ones counted from the end of the 200000-row table. -/
def wrap1 (n : (⟨S100000, .i32⟩ : BufTy).Contents (Elt Ideal)) : (⟨S100000, .i32⟩ : BufTy).Contents (Elt Ideal) :=
  select (cmpi .slt n (broadcastInDim S100000 ![] bcast_S_S100000 (constantI S_ 32 0#32)))
    (addi n (broadcastInDim S100000 ![] bcast_S_S100000 (constantI S_ 32 200000#32))) n

/-- The nodes' feature rows, gathered out of the table. -/
def feat (tbl : (⟨S200000x64, .f32⟩ : BufTy).Contents (Elt Ideal)) (n : (⟨S100000, .i32⟩ : BufTy).Contents (Elt Ideal)) : (⟨S100000x64, .f32⟩ : BufTy).Contents (Elt Ideal) :=
  Host.gather gather_S200000x64_S100000x1_S100000x64_1_0_n_n_0_1_164 tbl
    (broadcastInDim S100000x1 ![0] bcast_S100000_S100000x1_0 (wrap1 n))

/-- Neighbour indices with the negative ones counted from the end of the table. -/
def wrap2 (n : (⟨S100000x20, .i32⟩ : BufTy).Contents (Elt Ideal)) : (⟨S100000x20, .i32⟩ : BufTy).Contents (Elt Ideal) :=
  select (cmpi .slt n (broadcastInDim S100000x20 ![] bcast_S_S100000x20 (constantI S_ 32 0#32)))
    (addi n (broadcastInDim S100000x20 ![] bcast_S_S100000x20 (constantI S_ 32 200000#32))) n

/-- The nodes' twenty neighbour rows, gathered out of the table. -/
def nbrs (tbl : (⟨S200000x64, .f32⟩ : BufTy).Contents (Elt Ideal)) (n : (⟨S100000x20, .i32⟩ : BufTy).Contents (Elt Ideal)) : (⟨S100000x20x64, .f32⟩ : BufTy).Contents (Elt Ideal) :=
  Host.gather gather_S200000x64_S100000x20x1_S100000x20x64_2_0_n_n_0_2_164 tbl
    (broadcastInDim S100000x20x1 ![0, 1] bcast_S100000x20_S100000x20x1_0_1 (wrap2 n))

/-- A weight matrix transposed. -/
def tr (w : (⟨S64x64, .f32⟩ : BufTy).Contents (Elt Ideal)) : (⟨S64x64, .f32⟩ : BufTy).Contents (Elt Ideal) :=
  transpose S64x64 [1, 0] w transposes_S64x64_S64x64_1_0

/-! ## The two host stretches, read from any contents W they start from -/

section Stretches
variable (W : Valuation τ sig (Elt Ideal))

set_option maxHeartbeats 1000000 in
theorem s0_v6 : StableHlo.after hostOps0 W (Proc.devRef .tc main_v6) = feat (W (Proc.devRef .tc main_arg4)) (W (Proc.devRef .tc main_arg0)) := by
  after_results
  rfl
set_option maxHeartbeats 1000000 in
theorem s0_v13 : StableHlo.after hostOps0 W (Proc.devRef .tc main_v13) = nbrs (W (Proc.devRef .tc main_arg4)) (W (Proc.devRef .tc main_arg2)) := by
  after_results
  rfl
set_option maxHeartbeats 1000000 in
theorem s0_v14 : StableHlo.after hostOps0 W (Proc.devRef .tc main_v14) = tr (W (Proc.devRef .tc main_arg6)) := by
  after_results
  rfl
set_option maxHeartbeats 1000000 in
theorem s0_v15 : StableHlo.after hostOps0 W (Proc.devRef .tc main_v15) = tr (W (Proc.devRef .tc main_arg8)) := by
  after_results
  rfl
set_option maxHeartbeats 1000000 in
theorem s0_arg1 : StableHlo.after hostOps0 W (Proc.devRef .tc main_arg1) = W (Proc.devRef .tc main_arg1) := by
  after_results
set_option maxHeartbeats 1000000 in
theorem s0_arg3 : StableHlo.after hostOps0 W (Proc.devRef .tc main_arg3) = W (Proc.devRef .tc main_arg3) := by
  after_results
set_option maxHeartbeats 1000000 in
theorem s0_arg5 : StableHlo.after hostOps0 W (Proc.devRef .tc main_arg5) = W (Proc.devRef .tc main_arg5) := by
  after_results
set_option maxHeartbeats 1000000 in
theorem s0_arg7 : StableHlo.after hostOps0 W (Proc.devRef .tc main_arg7) = W (Proc.devRef .tc main_arg7) := by
  after_results
set_option maxHeartbeats 1000000 in
theorem s0_arg9 : StableHlo.after hostOps0 W (Proc.devRef .tc main_arg9) = W (Proc.devRef .tc main_arg9) := by
  after_results
set_option maxHeartbeats 1000000 in
theorem s0_arg10 : StableHlo.after hostOps0 W (Proc.devRef .tc main_arg10) = W (Proc.devRef .tc main_arg10) := by
  after_results
set_option maxHeartbeats 1000000 in
theorem s0_arg11 : StableHlo.after hostOps0 W (Proc.devRef .tc main_arg11) = W (Proc.devRef .tc main_arg11) := by
  after_results
set_option maxHeartbeats 1000000 in
theorem s0_arg12 : StableHlo.after hostOps0 W (Proc.devRef .tc main_arg12) = W (Proc.devRef .tc main_arg12) := by
  after_results
set_option maxHeartbeats 1000000 in
theorem s0_arg13 : StableHlo.after hostOps0 W (Proc.devRef .tc main_arg13) = W (Proc.devRef .tc main_arg13) := by
  after_results

set_option maxHeartbeats 1000000 in
theorem s1_v23 : StableHlo.after hostOps1 W (Proc.devRef .tc main_v23) = feat (W (Proc.devRef .tc main_arg5)) (W (Proc.devRef .tc main_arg1)) := by
  after_results
  rfl
set_option maxHeartbeats 1000000 in
theorem s1_v30 : StableHlo.after hostOps1 W (Proc.devRef .tc main_v30) = nbrs (W (Proc.devRef .tc main_arg5)) (W (Proc.devRef .tc main_arg3)) := by
  after_results
  rfl
set_option maxHeartbeats 1000000 in
theorem s1_v31 : StableHlo.after hostOps1 W (Proc.devRef .tc main_v31) = tr (W (Proc.devRef .tc main_arg10)) := by
  after_results
  rfl
set_option maxHeartbeats 1000000 in
theorem s1_v32 : StableHlo.after hostOps1 W (Proc.devRef .tc main_v32) = tr (W (Proc.devRef .tc main_arg12)) := by
  after_results
  rfl
set_option maxHeartbeats 1000000 in
theorem s1_arg11 : StableHlo.after hostOps1 W (Proc.devRef .tc main_arg11) = W (Proc.devRef .tc main_arg11) := by
  after_results
set_option maxHeartbeats 1000000 in
theorem s1_arg13 : StableHlo.after hostOps1 W (Proc.devRef .tc main_arg13) = W (Proc.devRef .tc main_arg13) := by
  after_results
set_option maxHeartbeats 1000000 in
theorem s1_v16 : StableHlo.after hostOps1 W (Proc.devRef .tc main_v16) = W (Proc.devRef .tc main_v16) := by
  after_results

end Stretches

variable (m : (ℓ : Loc nD τ sig) → Buf (Elt Ideal) ℓ) (ρ : Dev nD → PrngReg)

/-! ## The first region's entry contents -/

theorem V1_v6 (c : Dev nD) : V1 m ρ c main_v6
    = feat (m ((c : Thread nD τ).loc main_arg4)) (m ((c : Thread nD τ).loc main_arg0)) := s0_v6 (W0 m ρ c)
theorem V1_v13 (c : Dev nD) : V1 m ρ c main_v13
    = nbrs (m ((c : Thread nD τ).loc main_arg4)) (m ((c : Thread nD τ).loc main_arg2)) := s0_v13 (W0 m ρ c)
theorem V1_v14 (c : Dev nD) : V1 m ρ c main_v14 = tr (m ((c : Thread nD τ).loc main_arg6)) := s0_v14 (W0 m ρ c)
theorem V1_v15 (c : Dev nD) : V1 m ρ c main_v15 = tr (m ((c : Thread nD τ).loc main_arg8)) := s0_v15 (W0 m ρ c)
theorem V1_arg7 (c : Dev nD) : V1 m ρ c main_arg7 = m ((c : Thread nD τ).loc main_arg7) := s0_arg7 (W0 m ρ c)
theorem V1_arg9 (c : Dev nD) : V1 m ρ c main_arg9 = m ((c : Thread nD τ).loc main_arg9) := s0_arg9 (W0 m ρ c)

/-! ## The arguments the second stretch reads are as launched when it starts -/

theorem W2_arg1 (c : Dev nD) : W2 m ρ c (Proc.devRef .tc main_arg1) = m ((c : Thread nD τ).loc main_arg1) :=
  (W2_of_ne m ρ c main_arg1 (by decide)).trans (s0_arg1 (W0 m ρ c))
theorem W2_arg3 (c : Dev nD) : W2 m ρ c (Proc.devRef .tc main_arg3) = m ((c : Thread nD τ).loc main_arg3) :=
  (W2_of_ne m ρ c main_arg3 (by decide)).trans (s0_arg3 (W0 m ρ c))
theorem W2_arg5 (c : Dev nD) : W2 m ρ c (Proc.devRef .tc main_arg5) = m ((c : Thread nD τ).loc main_arg5) :=
  (W2_of_ne m ρ c main_arg5 (by decide)).trans (s0_arg5 (W0 m ρ c))
theorem W2_arg10 (c : Dev nD) : W2 m ρ c (Proc.devRef .tc main_arg10) = m ((c : Thread nD τ).loc main_arg10) :=
  (W2_of_ne m ρ c main_arg10 (by decide)).trans (s0_arg10 (W0 m ρ c))
theorem W2_arg11 (c : Dev nD) : W2 m ρ c (Proc.devRef .tc main_arg11) = m ((c : Thread nD τ).loc main_arg11) :=
  (W2_of_ne m ρ c main_arg11 (by decide)).trans (s0_arg11 (W0 m ρ c))
theorem W2_arg12 (c : Dev nD) : W2 m ρ c (Proc.devRef .tc main_arg12) = m ((c : Thread nD τ).loc main_arg12) :=
  (W2_of_ne m ρ c main_arg12 (by decide)).trans (s0_arg12 (W0 m ρ c))
theorem W2_arg13 (c : Dev nD) : W2 m ρ c (Proc.devRef .tc main_arg13) = m ((c : Thread nD τ).loc main_arg13) :=
  (W2_of_ne m ρ c main_arg13 (by decide)).trans (s0_arg13 (W0 m ρ c))

/-! ## The second region's entry contents -/

theorem V3_v23 (c : Dev nD) : V3 m ρ c main_v23
    = feat (m ((c : Thread nD τ).loc main_arg5)) (m ((c : Thread nD τ).loc main_arg1)) :=
  (s1_v23 (W2 m ρ c)).trans (by rw [W2_arg5, W2_arg1])
theorem V3_v30 (c : Dev nD) : V3 m ρ c main_v30
    = nbrs (m ((c : Thread nD τ).loc main_arg5)) (m ((c : Thread nD τ).loc main_arg3)) :=
  (s1_v30 (W2 m ρ c)).trans (by rw [W2_arg5, W2_arg3])
theorem V3_v31 (c : Dev nD) : V3 m ρ c main_v31 = tr (m ((c : Thread nD τ).loc main_arg10)) :=
  (s1_v31 (W2 m ρ c)).trans (by rw [W2_arg10])
theorem V3_v32 (c : Dev nD) : V3 m ρ c main_v32 = tr (m ((c : Thread nD τ).loc main_arg12)) :=
  (s1_v32 (W2 m ρ c)).trans (by rw [W2_arg12])
theorem V3_arg11 (c : Dev nD) : V3 m ρ c main_arg11 = m ((c : Thread nD τ).loc main_arg11) :=
  (s1_arg11 (W2 m ρ c)).trans (W2_arg11 m ρ c)
theorem V3_arg13 (c : Dev nD) : V3 m ρ c main_arg13 = m ((c : Thread nD τ).loc main_arg13) :=
  (s1_arg13 (W2 m ρ c)).trans (W2_arg13 m ρ c)

/-! ## The two results -/

/-- The user side's result, of the launch memory. -/
def userOut (c : Dev nD) : S100000x64.Idx → EReal :=
  Cert.Sage.layer (R := 100000)
    (feat (m ((c : Thread nD τ).loc main_arg4)) (m ((c : Thread nD τ).loc main_arg0)))
    (nbrs (m ((c : Thread nD τ).loc main_arg4)) (m ((c : Thread nD τ).loc main_arg2)))
    (tr (m ((c : Thread nD τ).loc main_arg6))) (tr (m ((c : Thread nD τ).loc main_arg8)))
    (m ((c : Thread nD τ).loc main_arg7)) (m ((c : Thread nD τ).loc main_arg9))

/-- The item side's result, of the launch memory. -/
def itemOut (c : Dev nD) : S100000x64.Idx → EReal :=
  Cert.Sage.layer (R := 100000)
    (feat (m ((c : Thread nD τ).loc main_arg5)) (m ((c : Thread nD τ).loc main_arg1)))
    (nbrs (m ((c : Thread nD τ).loc main_arg5)) (m ((c : Thread nD τ).loc main_arg3)))
    (tr (m ((c : Thread nD τ).loc main_arg10))) (tr (m ((c : Thread nD τ).loc main_arg12)))
    (m ((c : Thread nD τ).loc main_arg11)) (m ((c : Thread nD τ).loc main_arg13))

/-- The first result after the first region. -/
theorem W2_v16 (c : Dev nD) : W2 m ρ c (Proc.devRef .tc main_v16) = userOut m c := by
  refine (W2_arr m ρ c 6).trans ?_
  rw [Cert.KernelIdeal.User.arr_eq]
  unfold Cert.KernelIdeal.User.result userOut
  rw [V1_v6, V1_v13, V1_v14, V1_v15, V1_arg7, V1_arg9]

/-- The first result at the end: neither the second stretch nor the second region writes it. -/
theorem W4_v16 (c : Dev nD) : W4 m ρ c (Proc.devRef .tc main_v16) = userOut m c := by
  rw [W4_of_ne m ρ c main_v16 (by decide)]
  exact (s1_v16 (W2 m ρ c)).trans (W2_v16 m ρ c)

/-- The second result at the end. -/
theorem W4_v33 (c : Dev nD) : W4 m ρ c (Proc.devRef .tc main_v33) = itemOut m c := by
  refine (W4_arr m ρ c 6).trans ?_
  rw [Cert.KernelIdeal.Item.arr_eq]
  unfold Cert.KernelIdeal.Item.result itemOut
  rw [V3_v23, V3_v30, V3_v31, V3_v32, V3_arg11, V3_arg13]

/-- The run of the idealized kernel, read: every weakly fair execution terminates without a fault, the two result
    buffers end at the two sides' layers of the launch memory, and the arguments end as launched. -/
theorem run (ρ : Dev nD → PrngReg) : θ_run defs (onTc (τ := τ) (main (F := Ideal))) ⟨m, fun _ => 0, ρ⟩ (fun r => ∀ c : Dev nD,
      r.2.mem ((c.tc : Thread nD τ).loc main_v16) = userOut m c
      ∧ r.2.mem ((c.tc : Thread nD τ).loc main_v33) = itemOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c).1.trans (W4_v16 m ρ c), (h c).2.1.trans (W4_v33 m ρ c), (h c).2.2⟩) (run_named (F := Ideal) m ρ)

end Cert.KernelIdeal.Named

end
-- ==== Proof.RefUser.lean ====
/-
  The reference's first result is the layer on the whole array of user nodes.

  The reference gathers the nodes' feature rows and their twenty neighbour rows out of the table, and then, on
  whole [100000, ·] arrays, sums the neighbour rows and divides by 20, multiplies by the two transposed weight
  matrices, adds the biases in the order ((x·Ws^T + bs) + agg·Wn^T) + bn, clips at zero, and divides each row by the
  larger of its Euclidean length and the floor. Read at the entry (r, d), every stage touches node r only: the
  host's sum over the neighbour axis and over a row start from zero, its products are plain sums over the 64
  input columns, and each repeated bias or divisor reads the one entry it repeats. So the entry is Sage.row of
  node r's gathered rows. The gathers themselves are left as they are: the same two gathers feed the kernel.
-/
import proofs.«132692_j85813446574086_1_alg».proof.Proof.Gen.ReferenceIdeal.Read
import proofs.«132692_j85813446574086_1_alg».proof.Proof.SageSpec

noncomputable section

namespace Cert.ReferenceIdeal.User

open Cert.ReferenceIdeal Cert.ReferenceIdeal.Read
open Idealize.ShloMosaic Idealize.ShloMosaic.TcCoe Idealize.ShloMosaic.ValueIdx
open scoped BigOperators

/-! The index maps of the stages, at indices written by coordinates. -/

theorem e_nb (r : Fin 100000) (k : Fin 64) (s : Fin 20) : idx_main_v14 (ix2 r k) s = ix3 r s k :=
  funext fun a => Fin.ext (by match a with | ⟨0, _⟩ => rfl | ⟨1, _⟩ => rfl | ⟨2, _⟩ => rfl)
theorem e_l18 (r : Fin 100000) (d k : Fin 64) : lidx_main_v18 (ix2 r d) k = ix2 r k :=
  funext fun a => Fin.ext (by match a with | ⟨0, _⟩ => rfl | ⟨1, _⟩ => rfl)
theorem e_r18 (r : Fin 100000) (d k : Fin 64) : ridx_main_v18 (ix2 r d) k = ix2 k d :=
  funext fun a => Fin.ext (by match a with | ⟨0, _⟩ => rfl | ⟨1, _⟩ => rfl)
theorem e_l23 (r : Fin 100000) (d k : Fin 64) : lidx_main_v23 (ix2 r d) k = ix2 r k :=
  funext fun a => Fin.ext (by match a with | ⟨0, _⟩ => rfl | ⟨1, _⟩ => rfl)
theorem e_r23 (r : Fin 100000) (d k : Fin 64) : ridx_main_v23 (ix2 r d) k = ix2 k d :=
  funext fun a => Fin.ext (by match a with | ⟨0, _⟩ => rfl | ⟨1, _⟩ => rfl)
theorem e_b20 (r : Fin 100000) (d : Fin 64) : idx_main_v19 (idx_main_v20 (ix2 r d)) = ix1 d :=
  funext fun a => Fin.ext (by match a with | ⟨0, _⟩ => rfl)
theorem e_b26 (r : Fin 100000) (d : Fin 64) : idx_main_v25 (idx_main_v26 (ix2 r d)) = ix1 d :=
  funext fun a => Fin.ext (by match a with | ⟨0, _⟩ => rfl)
theorem e_sq (r : Fin 100000) (d k : Fin 64) : idx_main_call1_v1 (idx_main_call1_v2 (idx_main_v32 (ix2 r d))) k = ix2 r k :=
  funext fun a => Fin.ext (by match a with | ⟨0, _⟩ => rfl | ⟨1, _⟩ => rfl)

/-- The neighbour mean, at node r and column k. -/
theorem mean_apply (x0 : (⟨S100000, .i32⟩ : BufTy).Contents (Elt Ideal)) (x2 : (⟨S100000x20, .i32⟩ : BufTy).Contents (Elt Ideal)) (x4 : (⟨S200000x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (r : Fin 100000) (k : Fin 64) :
    val_main_v16 (F := Ideal) x2 x4 (ix2 r k) = Cert.Sage.agg (fun s k => val_main_v13 (F := Ideal) x2 x4 (ix3 r s k)) k := by
  rw [val_main_v16_apply, val_main_v14_apply, val_main_v15_apply, val_main_cst_3_apply, val_main_cst_apply]
  simp only [e_nb, Ideal.hostDivf_def, Ideal.ofBits_def, Ideal.ofBits_zero_f32, zero_add]
  rfl

/-- The value after the clip, at node r and column d. -/
theorem act_apply (x0 : (⟨S100000, .i32⟩ : BufTy).Contents (Elt Ideal)) (x2 : (⟨S100000x20, .i32⟩ : BufTy).Contents (Elt Ideal)) (x4 : (⟨S200000x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (r : Fin 100000) (d : Fin 64) :
    val_main_v28 (F := Ideal) x0 x2 x4 x6 x7 x8 x9 (ix2 r d)
      = Cert.Sage.act (fun k => val_main_v6 (F := Ideal) x0 x4 (ix2 r k)) (fun s k => val_main_v13 (F := Ideal) x2 x4 (ix3 r s k))
          (fun k d => val_main_v17 (F := Ideal) x6 (ix2 k d)) (fun k d => val_main_v22 (F := Ideal) x8 (ix2 k d))
          (fun d => x7 (ix1 d)) (fun d => x9 (ix1 d)) d := by
  rw [val_main_v28_apply, val_main_v27_apply, val_main_v24_apply, val_main_v21_apply, val_main_v18_apply, val_main_v23_apply,
    val_main_v20_apply, val_main_v19_apply, val_main_v26_apply, val_main_v25_apply, val_main_call0_v0_apply, val_main_call0_cst_apply]
  simp only [e_l18, e_r18, e_l23, e_r23, e_b20, e_b26, mean_apply x0 x2 x4 x6 x7 x8 x9, Ideal.addf_def, Ideal.maximumf_def,
    Ideal.ofBits_def, Ideal.ofBits_zero_f32]
  rfl

/-- The first result is the layer of the gathered rows. -/
theorem result_eq (x0 : (⟨S100000, .i32⟩ : BufTy).Contents (Elt Ideal)) (x2 : (⟨S100000x20, .i32⟩ : BufTy).Contents (Elt Ideal)) (x4 : (⟨S200000x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v33 (F := Ideal) x0 x2 x4 x6 x7 x8 x9
      = Cert.Sage.layer (R := 100000) (val_main_v6 (F := Ideal) x0 x4) (val_main_v13 (F := Ideal) x2 x4)
          (val_main_v17 (F := Ideal) x6) (val_main_v22 (F := Ideal) x8) x7 x9 := by
  funext i
  obtain ⟨r, d, rfl⟩ : ∃ (r : Fin 100000) (d : Fin 64), i = ix2 r d := ⟨i 0, i 1, eq_ix2 i⟩
  rw [Cert.Sage.layer_apply, val_main_v33_apply, val_main_v32_apply, val_main_v31_apply, val_main_v29_apply, val_main_call1_v2_apply,
    val_main_call1_v1_apply, val_main_v30_apply, val_main_cst_4_apply, val_main_call1_cst_apply]
  simp only [val_main_call1_v0_apply, e_sq, act_apply x0 x2 x4 x6 x7 x8 x9, Ideal.hostDivf_def, Ideal.hostUnary_sqrt_def,
    Ideal.maximumf_def, Ideal.mulf_def, Ideal.ofBits_def, Ideal.ofBits_zero_f32, zero_add]
  rfl

end Cert.ReferenceIdeal.User

end
-- ==== Proof.RefItem.lean ====
/-
  The reference's second result is the layer on the whole array of item nodes.

  The reference gathers the nodes' feature rows and their twenty neighbour rows out of the table, and then, on
  whole [100000, ·] arrays, sums the neighbour rows and divides by 20, multiplies by the two transposed weight
  matrices, adds the biases in the order ((x·Ws^T + bs) + agg·Wn^T) + bn, clips at zero, and divides each row by the
  larger of its Euclidean length and the floor. Read at the entry (r, d), every stage touches node r only: the
  host's sum over the neighbour axis and over a row start from zero, its products are plain sums over the 64
  input columns, and each repeated bias or divisor reads the one entry it repeats. So the entry is Sage.row of
  node r's gathered rows. The gathers themselves are left as they are: the same two gathers feed the kernel.
-/
import proofs.«132692_j85813446574086_1_alg».proof.Proof.Gen.ReferenceIdeal.Read
import proofs.«132692_j85813446574086_1_alg».proof.Proof.SageSpec

noncomputable section

namespace Cert.ReferenceIdeal.Item

open Cert.ReferenceIdeal Cert.ReferenceIdeal.Read
open Idealize.ShloMosaic Idealize.ShloMosaic.TcCoe Idealize.ShloMosaic.ValueIdx
open scoped BigOperators

/-! The index maps of the stages, at indices written by coordinates. -/

theorem e_nb (r : Fin 100000) (k : Fin 64) (s : Fin 20) : idx_main_v48 (ix2 r k) s = ix3 r s k :=
  funext fun a => Fin.ext (by match a with | ⟨0, _⟩ => rfl | ⟨1, _⟩ => rfl | ⟨2, _⟩ => rfl)
theorem e_l18 (r : Fin 100000) (d k : Fin 64) : lidx_main_v52 (ix2 r d) k = ix2 r k :=
  funext fun a => Fin.ext (by match a with | ⟨0, _⟩ => rfl | ⟨1, _⟩ => rfl)
theorem e_r18 (r : Fin 100000) (d k : Fin 64) : ridx_main_v52 (ix2 r d) k = ix2 k d :=
  funext fun a => Fin.ext (by match a with | ⟨0, _⟩ => rfl | ⟨1, _⟩ => rfl)
theorem e_l23 (r : Fin 100000) (d k : Fin 64) : lidx_main_v57 (ix2 r d) k = ix2 r k :=
  funext fun a => Fin.ext (by match a with | ⟨0, _⟩ => rfl | ⟨1, _⟩ => rfl)
theorem e_r23 (r : Fin 100000) (d k : Fin 64) : ridx_main_v57 (ix2 r d) k = ix2 k d :=
  funext fun a => Fin.ext (by match a with | ⟨0, _⟩ => rfl | ⟨1, _⟩ => rfl)
theorem e_b20 (r : Fin 100000) (d : Fin 64) : idx_main_v53 (idx_main_v54 (ix2 r d)) = ix1 d :=
  funext fun a => Fin.ext (by match a with | ⟨0, _⟩ => rfl)
theorem e_b26 (r : Fin 100000) (d : Fin 64) : idx_main_v59 (idx_main_v60 (ix2 r d)) = ix1 d :=
  funext fun a => Fin.ext (by match a with | ⟨0, _⟩ => rfl)
theorem e_sq (r : Fin 100000) (d k : Fin 64) : idx_main_call3_v1 (idx_main_call3_v2 (idx_main_v66 (ix2 r d))) k = ix2 r k :=
  funext fun a => Fin.ext (by match a with | ⟨0, _⟩ => rfl | ⟨1, _⟩ => rfl)

/-- The neighbour mean, at node r and column k. -/
theorem mean_apply (x1 : (⟨S100000, .i32⟩ : BufTy).Contents (Elt Ideal)) (x3 : (⟨S100000x20, .i32⟩ : BufTy).Contents (Elt Ideal)) (x5 : (⟨S200000x64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (r : Fin 100000) (k : Fin 64) :
    val_main_v50 (F := Ideal) x3 x5 (ix2 r k) = Cert.Sage.agg (fun s k => val_main_v47 (F := Ideal) x3 x5 (ix3 r s k)) k := by
  rw [val_main_v50_apply, val_main_v48_apply, val_main_v49_apply, val_main_cst_10_apply, val_main_cst_9_apply]
  simp only [e_nb, Ideal.hostDivf_def, Ideal.ofBits_def, Ideal.ofBits_zero_f32, zero_add]
  rfl

/-- The value after the clip, at node r and column d. -/
theorem act_apply (x1 : (⟨S100000, .i32⟩ : BufTy).Contents (Elt Ideal)) (x3 : (⟨S100000x20, .i32⟩ : BufTy).Contents (Elt Ideal)) (x5 : (⟨S200000x64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) (r : Fin 100000) (d : Fin 64) :
    val_main_v62 (F := Ideal) x1 x3 x5 x10 x11 x12 x13 (ix2 r d)
      = Cert.Sage.act (fun k => val_main_v40 (F := Ideal) x1 x5 (ix2 r k)) (fun s k => val_main_v47 (F := Ideal) x3 x5 (ix3 r s k))
          (fun k d => val_main_v51 (F := Ideal) x10 (ix2 k d)) (fun k d => val_main_v56 (F := Ideal) x12 (ix2 k d))
          (fun d => x11 (ix1 d)) (fun d => x13 (ix1 d)) d := by
  rw [val_main_v62_apply, val_main_v61_apply, val_main_v58_apply, val_main_v55_apply, val_main_v52_apply, val_main_v57_apply,
    val_main_v54_apply, val_main_v53_apply, val_main_v60_apply, val_main_v59_apply, val_main_call2_v0_apply, val_main_call2_cst_apply]
  simp only [e_l18, e_r18, e_l23, e_r23, e_b20, e_b26, mean_apply x1 x3 x5 x10 x11 x12 x13, Ideal.addf_def, Ideal.maximumf_def,
    Ideal.ofBits_def, Ideal.ofBits_zero_f32]
  rfl

/-- The second result is the layer of the gathered rows. -/
theorem result_eq (x1 : (⟨S100000, .i32⟩ : BufTy).Contents (Elt Ideal)) (x3 : (⟨S100000x20, .i32⟩ : BufTy).Contents (Elt Ideal)) (x5 : (⟨S200000x64, .f32⟩ : BufTy).Contents (Elt Ideal)) (x10 : (⟨S64x64, .f32⟩ : BufTy).Contents (Elt Ideal)) (x11 : (⟨S64, .f32⟩ : BufTy).Contents (Elt Ideal)) (x12 : (⟨S64x64, .f32⟩ : BufTy).Contents (Elt Ideal)) (x13 : (⟨S64, .f32⟩ : BufTy).Contents (Elt Ideal)) :
    val_main_v67 (F := Ideal) x1 x3 x5 x10 x11 x12 x13
      = Cert.Sage.layer (R := 100000) (val_main_v40 (F := Ideal) x1 x5) (val_main_v47 (F := Ideal) x3 x5)
          (val_main_v51 (F := Ideal) x10) (val_main_v56 (F := Ideal) x12) x11 x13 := by
  funext i
  obtain ⟨r, d, rfl⟩ : ∃ (r : Fin 100000) (d : Fin 64), i = ix2 r d := ⟨i 0, i 1, eq_ix2 i⟩
  rw [Cert.Sage.layer_apply, val_main_v67_apply, val_main_v66_apply, val_main_v65_apply, val_main_v63_apply, val_main_call3_v2_apply,
    val_main_call3_v1_apply, val_main_v64_apply, val_main_cst_11_apply, val_main_call3_cst_apply]
  simp only [val_main_call3_v0_apply, e_sq, act_apply x1 x3 x5 x10 x11 x12 x13, Ideal.hostDivf_def, Ideal.hostUnary_sqrt_def,
    Ideal.maximumf_def, Ideal.mulf_def, Ideal.ofBits_def, Ideal.ofBits_zero_f32, zero_add]
  rfl

end Cert.ReferenceIdeal.Item

end
-- ==== Proof.lean ====
/-
  A two-sided graph layer with mean aggregation: the tiled kernel program against the whole-array reference.

  Each side (user, item) gathers its nodes' feature rows and twenty neighbour rows out of its table, averages the
  neighbour rows, applies two 64 x 64 linear maps and two biases, clips at zero and divides each row by the larger
  of its Euclidean length and a floor of about 1e-12. The kernel program does the gathers and the transposes on
  the host and the rest in one pipelined region per side, 1000 nodes a tile; the reference does all of it on whole
  arrays. Over the extended reals the two are the same function of the arguments, entry by entry, with no
  reordering beyond the order of a finite sum: every entry (r, d) of a result reads node r's gathered rows only
  (Sage.row), the kernel's tile stores exactly that (KernelBlock), the tiles cover the array (RegionUser,
  RegionItem), and the reference's stages read at (r, d) give the same expression (RefUser, RefItem). The gathers
  are the same operations of the same arguments in both programs and are never opened. No step uses that the inputs
  are finite.

  The frames of the two kernel programs are the generated ones; the reference's is its generated run with the
  results dropped. The idealization rewrote no operation, so there is nothing to preserve.
-/
import proofs.«132692_j85813446574086_1_alg».proof.Defs
import proofs.«132692_j85813446574086_1_alg».proof.Proof.Gen.Kernel
import proofs.«132692_j85813446574086_1_alg».proof.Proof.Gen.Kernel.Skeleton
import proofs.«132692_j85813446574086_1_alg».proof.Proof.Gen.Kernel.Launch
import proofs.«132692_j85813446574086_1_alg».proof.Proof.Gen.Kernel.Points
import proofs.«132692_j85813446574086_1_alg».proof.Proof.Gen.Kernel.Frame
import proofs.«132692_j85813446574086_1_alg».proof.Proof.Gen.KernelIdeal
import proofs.«132692_j85813446574086_1_alg».proof.Proof.Gen.KernelIdeal.Skeleton
import proofs.«132692_j85813446574086_1_alg».proof.Proof.Gen.KernelIdeal.Launch
import proofs.«132692_j85813446574086_1_alg».proof.Proof.Gen.KernelIdeal.Points
import proofs.«132692_j85813446574086_1_alg».proof.Proof.Gen.KernelIdeal.Frame
import proofs.«132692_j85813446574086_1_alg».proof.Proof.Gen.ReferenceIdeal
import proofs.«132692_j85813446574086_1_alg».proof.Proof.Gen.Pre_finite_inputs
import proofs.«132692_j85813446574086_1_alg».proof.Proof.Gen.ReferenceIdeal.Run
import proofs.«132692_j85813446574086_1_alg».proof.Proof.Gen.ReferenceIdeal.Read
import proofs.«132692_j85813446574086_1_alg».proof.Proof.KernelValue
import proofs.«132692_j85813446574086_1_alg».proof.Proof.RefUser
import proofs.«132692_j85813446574086_1_alg».proof.Proof.RefItem
import Idealize.ShloMosaic.Adequacy
import Idealize.ShloMosaic.Init

noncomputable section

namespace Cert.Proof

open Idealize.ShloMosaic Idealize.ShloMosaic.TcCoe Idealize.SL.Sem

/-! ## The host chains are the same operations in both programs -/

section Chains
open Cert.ReferenceIdeal Cert.ReferenceIdeal.Read

theorem feat_user (n : (⟨S100000, .i32⟩ : BufTy).Contents (Elt Ideal)) (tbl : (⟨S200000x64, .f32⟩ : BufTy).Contents (Elt Ideal)) :
    val_main_v6 (F := Ideal) n tbl = Cert.KernelIdeal.Named.feat tbl n := rfl
theorem nbrs_user (n : (⟨S100000x20, .i32⟩ : BufTy).Contents (Elt Ideal)) (tbl : (⟨S200000x64, .f32⟩ : BufTy).Contents (Elt Ideal)) :
    val_main_v13 (F := Ideal) n tbl = Cert.KernelIdeal.Named.nbrs tbl n := rfl
theorem tr_v17 (w : (⟨S64x64, .f32⟩ : BufTy).Contents (Elt Ideal)) : val_main_v17 (F := Ideal) w = Cert.KernelIdeal.Named.tr w := rfl
theorem tr_v22 (w : (⟨S64x64, .f32⟩ : BufTy).Contents (Elt Ideal)) : val_main_v22 (F := Ideal) w = Cert.KernelIdeal.Named.tr w := rfl
theorem feat_item (n : (⟨S100000, .i32⟩ : BufTy).Contents (Elt Ideal)) (tbl : (⟨S200000x64, .f32⟩ : BufTy).Contents (Elt Ideal)) :
    val_main_v40 (F := Ideal) n tbl = Cert.KernelIdeal.Named.feat tbl n := rfl
theorem nbrs_item (n : (⟨S100000x20, .i32⟩ : BufTy).Contents (Elt Ideal)) (tbl : (⟨S200000x64, .f32⟩ : BufTy).Contents (Elt Ideal)) :
    val_main_v47 (F := Ideal) n tbl = Cert.KernelIdeal.Named.nbrs tbl n := rfl
theorem tr_v51 (w : (⟨S64x64, .f32⟩ : BufTy).Contents (Elt Ideal)) : val_main_v51 (F := Ideal) w = Cert.KernelIdeal.Named.tr w := rfl
theorem tr_v56 (w : (⟨S64x64, .f32⟩ : BufTy).Contents (Elt Ideal)) : val_main_v56 (F := Ideal) w = Cert.KernelIdeal.Named.tr w := rfl

end Chains

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the two sides' layers of the arguments in their result buffers. -/
theorem algebraic : Cert.algebraic_KernelIdeal_ReferenceIdeal := by
  intro m ρ m' ρ' _ hagree
  refine ⟨fun c => Cert.KernelIdeal.Named.userOut m c, fun c => Cert.KernelIdeal.Named.itemOut m c,
    Cert.KernelIdeal.Named.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13⟩ := hagree c
    rw [Cert.ReferenceIdeal.Read.val_main_v33_eq, Cert.ReferenceIdeal.User.result_eq, feat_user, nbrs_user, tr_v17, tr_v22,
      a0, a2, a4, a6, a7, a8, a9]
    rfl
  · obtain ⟨a0, a1, a2, a3, a4, a5, a6, a7, a8, a9, a10, a11, a12, a13⟩ := hagree c
    rw [Cert.ReferenceIdeal.Read.val_main_v67_eq, Cert.ReferenceIdeal.Item.result_eq, feat_item, nbrs_item, tr_v51, tr_v56,
      a1, a3, a5, a10, a11, a12, a13]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
